-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x4096 : Shape := ⟨3, ![8, 64, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S8x64x4096 : S_.BroadcastsInDim S8x64x4096 (![] : Fin 0 → Fin S8x64x4096.rank)
  reducesTo_S8x64x4096_S_d0_1_2 : S8x64x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8x64x4096 .f32) (main_arg1 : IVec S11008x4096 32) (main_arg2 : FVec F S11008x1 .f32) (main_arg3 : FVec F S11008 .f32) : IVec S_ 1 :=
  let main_v0 : FVec F S8x64x4096 .f32 := Host.absf main_arg0
  let main_cst : FVec F S_ .f32 := constant S_ .f32 0x7F800000#32
  let main_v1 : FVec F S8x64x4096 .f32 := broadcastInDim S8x64x4096 ![] bcast_S_S8x64x4096 main_cst
  let main_v2 : IVec S8x64x4096 1 := cmpf .olt main_v0 main_v1
  let main_c : IVec S_ 1 := constantI S_ 1 1#1
  let main_v3 : IVec S_ 1 := (fun x v => Host.reduce IntOp.andi x v reducesTo_S8x64x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8x64x4096 : Shape := ⟨3, ![8, 64, 4096]⟩
abbrev S11008x4096 : Shape := ⟨2, ![11008, 4096]⟩
abbrev S11008x1 : Shape := ⟨2, ![11008, 1]⟩
abbrev S11008 : Shape := ⟨1, ![11008]⟩
abbrev S512x4096 : Shape := ⟨2, ![512, 4096]⟩
abbrev S1x11008 : Shape := ⟨2, ![1, 11008]⟩
abbrev S512x11008 : Shape := ⟨2, ![512, 11008]⟩
abbrev S256x4096 : Shape := ⟨2, ![256, 4096]⟩
abbrev S256x1 : Shape := ⟨2, ![256, 1]⟩
abbrev S1x256 : Shape := ⟨2, ![1, 256]⟩
abbrev S512x256 : Shape := ⟨2, ![512, 256]⟩
abbrev S8x64x11008 : Shape := ⟨3, ![8, 64, 11008]⟩

abbrev nBuf : Space → Nat
  | .hbm => 8
  | .vmem => 9
  | .smem => 0
  | _ => 0

abbrev bufTy : (tb : Table) → Fin (tcTables nBuf tb) → BufTy
  | .hbm, ⟨0, _⟩ => ⟨S8x64x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S512x4096, .f32⟩
  | .hbm, ⟨5, _⟩ => ⟨S1x11008, .f32⟩
  | .hbm, ⟨6, _⟩ => ⟨S512x11008, .f32⟩
  | .hbm, ⟨7, _⟩ => ⟨S8x64x11008, .f32⟩
  | .local _ .vmem, ⟨0, _⟩ => ⟨S512x4096, .f32⟩
  | .local _ .vmem, ⟨1, _⟩ => ⟨S256x4096, .i32⟩
  | .local _ .vmem, ⟨2, _⟩ => ⟨S256x4096, .i32⟩
  | .local _ .vmem, ⟨3, _⟩ => ⟨S256x1, .f32⟩
  | .local _ .vmem, ⟨4, _⟩ => ⟨S256x1, .f32⟩
  | .local _ .vmem, ⟨5, _⟩ => ⟨S1x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | _, _ => ⟨S8x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x64x4096_S512x4096 : S8x64x4096.ShapeCasts S512x4096
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  broadcasts_S256x1_S256x4096 : S256x1.Broadcasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S512x11008_S8x64x11008 : S512x11008.ShapeCasts S8x64x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .f32 = 32 ∨ (Rect.block (s := S512x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x11008.size a
  hwx0_4 : ∀ i : grid0.Coords, EltTy.bits .f32 = 32 ∨ (Rect.block (s := S512x11008) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x4096 : Shape := ⟨3, ![8, 64, 4096]⟩
abbrev S11008x4096 : Shape := ⟨2, ![11008, 4096]⟩
abbrev S11008x1 : Shape := ⟨2, ![11008, 1]⟩
abbrev S11008 : Shape := ⟨1, ![11008]⟩
abbrev S8x64x11008 : Shape := ⟨3, ![8, 64, 11008]⟩
abbrev S1x1x11008 : Shape := ⟨3, ![1, 1, 11008]⟩

abbrev nBuf : Space → Nat
  | .hbm => 11
  | .vmem => 0
  | .smem => 0
  | _ => 0

abbrev bufTy : (tb : Table) → Fin (tcTables nBuf tb) → BufTy
  | .hbm, ⟨0, _⟩ => ⟨S8x64x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S11008x4096, .f32⟩
  | .hbm, ⟨7, _⟩ => ⟨S8x64x11008, .f32⟩
  | .hbm, ⟨8, _⟩ => ⟨S1x1x11008, .f32⟩
  | .hbm, ⟨9, _⟩ => ⟨S8x64x11008, .f32⟩
  | .hbm, ⟨10, _⟩ => ⟨S8x64x11008, .f32⟩
  | _, _ => ⟨S8x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S8x64x11008_0_1_2 : S1x1x11008.BroadcastsInDim S8x64x11008 (![0, 1, 2] : Fin 3 → Fin S8x64x11008.rank)
  dot_S8x64x4096_S11008x4096_S8x64x11008_2_1_01_0_n_n_wf : DotDims.WF S8x64x4096 S11008x4096 S8x64x11008 [2] [1] [0, 1] [0] [] []

variable [Facts₀]

def dot_S8x64x4096_S11008x4096_S8x64x11008_2_1_01_0_n_n : DotDims S8x64x4096 S11008x4096 S8x64x11008 where
  lhsContracting := [2]
  rhsContracting := [1]
  lhsNonContracting := [0, 1]
  rhsNonContracting := [0]
  lhsBatch := []
  rhsBatch := []
  wf := dot_S8x64x4096_S11008x4096_S8x64x11008_2_1_01_0_n_n_wf

class Facts : Prop extends Facts₀ where

variable [Facts]
-- ==== Proof.BlockProduct.lean ====
/-
  The product of a block of 512 input rows with a block of 256 weight rows, read at an entry.

  The kernel multiplies a [512, 4096] block by a [256, 4096] block contracting the LAST axis of both (the weight block is
  used row by row, with no transposed copy). Started from the zero block, entry (p, n) of the product is the sum over
  k of left (p, k) * right (n, k): row p of the left block against row n of the right block.
-/
import proofs.«127501_j37452114821241_1_alg».proof.Proof.Gen.KernelIdeal
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-- The left operand's kept axis reads the result's row. -/
theorem lhs_row (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
/-- Its contracted axis reads the summation index. -/
theorem lhs_sum (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
/-- The right operand's kept axis reads the result's column. -/
theorem rhs_row (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
/-- Its contracted axis reads the summation index. -/
theorem rhs_sum (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- THE BLOCK PRODUCT AT (p, n), from the zero block: the sum over k of left (p, k) * right (n, k). -/
theorem product_apply {φ₁ φ₂ : FTy} (l : FVec Ideal S512x4096 φ₁) (r : FVec Ideal S256x4096 φ₂) (p : Fin 512) (n : Fin 256) :
    matmul dot_S512x4096_S256x4096_S512x256_1_1_0_0_n_n none l r (constant S512x256 .f32 0x00000000#32) (ix2 p n)
      = ∑ k : Fin 4096, l (ix2 p k) * r (ix2 n k) := by
  show FloatOps.matmul dot_S512x4096_S256x4096_S512x256_1_1_0_0_n_n none l r (constant S512x256 .f32 0x00000000#32) (ix2 p n) = _
  rw [Ideal.matmul_constant_zero_apply, ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p n) ((contrEquiv1 dot_S512x4096_S256x4096_S512x256_1_1_0_0_n_n 4096 rfl rfl).symm k) = ix2 p k := funext fun a => Fin.ext (by
    match a with
    | ⟨0, _⟩ => exact lhs_row _ _
    | ⟨1, _⟩ => exact (lhs_sum _ _).trans hk)
  have er : dot_S512x4096_S256x4096_S512x256_1_1_0_0_n_n.rhsIdx (ix2 p n) ((contrEquiv1 dot_S512x4096_S256x4096_S512x256_1_1_0_0_n_n 4096 rfl rfl).symm k) = ix2 n k := funext fun a => Fin.ext (by
    match a with
    | ⟨0, _⟩ => exact rhs_row _ _
    | ⟨1, _⟩ => exact (rhs_sum _ _).trans hk)
  rw [el, er]

end Cert.KernelIdeal.BlockProduct

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.DequantLinear.lean ====
/-
  A linear layer whose weight matrix is stored as integers with one scale per output row.

  Entry (o, k) of the weight matrix is the stored integer q[o, k], read as a real number, times the scale s[o] of its
  row. The layer maps each of the 8 * 64 input rows x[a, r, :] (4096 numbers) to 11008 outputs,

      y[a, r, o] = (sum over k of x[a, r, k] * (q[o, k] * s[o])) + b[o],

  with b the bias. The same numbers can be laid out as a table with 512 = 8 * 64 rows, row 64 * a + r holding y[a, r, :];
  a reshape between [8, 64, n] and [512, n] keeps the row-major position, so it is exactly this renumbering of the rows.
  This file states the entry, both layouts, and that reshaping the table of 512 rows computed from the reshaped inputs
  gives the table indexed by (a, r, o). Everything is over the extended reals; no algebraic law is used: the two layouts
  hold literally the same sums.
-/
import Idealize.ShloMosaic.Lib.ValueIdx
import Idealize.ShloMosaic.Lib.Pipeline.Value

noncomputable section

namespace Cert.DequantLinear

open Idealize.ShloMosaic Idealize.ShloMosaic.ValueIdx

/-- Entry (o, k) of the dequantized weight matrix: the stored integer as a real, times the scale of row o. -/
def weight (q : (⟨2, ![11008, 4096]⟩ : Shape).Idx → BitVec 32) (s : (⟨2, ![11008, 1]⟩ : Shape).Idx → EReal)
    (o : Fin 11008) (k : Fin 4096) : EReal :=
  (FloatOps.sitofp .f32 (q (ix2 o k)) : Ideal .f32) * s (ix2 o (0 : Fin 1))

/-- Output o of one input row: the row's product with row o of the weight matrix, plus the bias of o. -/
def entry (row : Fin 4096 → EReal) (q : (⟨2, ![11008, 4096]⟩ : Shape).Idx → BitVec 32)
    (s : (⟨2, ![11008, 1]⟩ : Shape).Idx → EReal) (bias : EReal) (o : Fin 11008) : EReal :=
  (∑ k : Fin 4096, row k * weight q s o k) + bias

/-- The layer on a table of 512 input rows, the bias given as a table of one row. -/
def rows (x : (⟨2, ![512, 4096]⟩ : Shape).Idx → EReal) (q : (⟨2, ![11008, 4096]⟩ : Shape).Idx → BitVec 32)
    (s : (⟨2, ![11008, 1]⟩ : Shape).Idx → EReal) (b : (⟨2, ![1, 11008]⟩ : Shape).Idx → EReal) :
    (⟨2, ![512, 11008]⟩ : Shape).Idx → EReal :=
  fun j => entry (fun k => x (ix2 (j 0) k)) q s (b (ix2 (0 : Fin 1) (j 1))) (j 1)

/-- The layer on the inputs indexed by (a, r), the bias a vector. -/
def table (x : (⟨3, ![8, 64, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal) :
    (⟨3, ![8, 64, 11008]⟩ : Shape).Idx → EReal :=
  fun i => entry (fun k => x (ix3 (i 0) (i 1) k)) q s (b (ix1 (i 2))) (i 2)

/-- Row 64 * a + r of the reshaped inputs is input row (a, r). -/
theorem reshape_input (x : (⟨3, ![8, 64, 4096]⟩ : Shape).Idx → EReal)
    (h : (⟨3, ![8, 64, 4096]⟩ : Shape).ShapeCasts ⟨2, ![512, 4096]⟩) (a : Fin 8) (r : Fin 64) (k : Fin 4096)
    (hr : a.val * 64 + r.val < 512) :
    shapeCast ⟨2, ![512, 4096]⟩ x h (ix2 (⟨a.val * 64 + r.val, hr⟩ : Fin 512) k) = x (ix3 a r k) :=
  shapeCast_apply x h _ _ (by
    rw [Shape.rowMajor_val_three, Shape.rowMajor_val_two]
    rfl)

/-- The bias vector laid out as one row: entry (0, o) is entry o. -/
theorem reshape_bias (b : (⟨1, ![11008]⟩ : Shape).Idx → EReal)
    (h : (⟨1, ![11008]⟩ : Shape).ShapeCasts ⟨2, ![1, 11008]⟩) (o : Fin 11008) :
    shapeCast ⟨2, ![1, 11008]⟩ b h (ix2 (0 : Fin 1) o) = b (ix1 o) :=
  shapeCast_apply b h _ _ (by
    rw [Shape.rowMajor_val_one, Shape.rowMajor_val_two]
    show o.val = 0 * 11008 + o.val
    omega)

/-- THE TWO LAYOUTS AGREE: the table of 512 rows computed from the reshaped inputs and the one-row bias, reshaped to
    [8, 64, 11008], is the table indexed by (a, r, o). -/
theorem table_of_rows (x : (⟨3, ![8, 64, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal)
    (hx : (⟨3, ![8, 64, 4096]⟩ : Shape).ShapeCasts ⟨2, ![512, 4096]⟩)
    (hb : (⟨1, ![11008]⟩ : Shape).ShapeCasts ⟨2, ![1, 11008]⟩)
    (ho : (⟨2, ![512, 11008]⟩ : Shape).ShapeCasts ⟨3, ![8, 64, 11008]⟩) :
    shapeCast ⟨3, ![8, 64, 11008]⟩ (rows (shapeCast ⟨2, ![512, 4096]⟩ x hx) q s (shapeCast ⟨2, ![1, 11008]⟩ b hb)) ho
      = table x q s b := by
  funext i
  obtain ⟨a, r, o, rfl⟩ : ∃ (a : Fin 8) (r : Fin 64) (o : Fin 11008), i = ix3 a r o := ⟨i 0, i 1, i 2, eq_ix3 i⟩
  have hr : a.val * 64 + r.val < 512 := by have := a.isLt; have := r.isLt; omega
  -- the reshape reads the table of 512 rows at row 64 * a + r, column o
  rw [shapeCast_apply _ ho (ix3 a r o) (ix2 (⟨a.val * 64 + r.val, hr⟩ : Fin 512) o) (by
    rw [Shape.rowMajor_val_two, Shape.rowMajor_val_three]
    rfl)]
  show entry (fun k => shapeCast ⟨2, ![512, 4096]⟩ x hx (ix2 (⟨a.val * 64 + r.val, hr⟩ : Fin 512) k)) q s
      (shapeCast ⟨2, ![1, 11008]⟩ b hb (ix2 (0 : Fin 1) o)) o = entry (fun k => x (ix3 a r k)) q s (b (ix1 o)) o
  rw [reshape_bias b hb o]
  congr 1
  funext k
  exact reshape_input x hx a r k hr

end Cert.DequantLinear

end
-- ==== Proof.BlockValue.lean ====
/-
  What one grid step computes, read at an entry.

  At a grid step the kernel holds all 512 input rows, a block of 256 rows of the stored integers, the 256 scales of those
  rows (a column) and the 256 biases of those rows (a row). It dequantizes the block — integer as a real, times the scale
  of its row, the column of scales repeated along the row — multiplies the inputs with the block row against row, and
  adds the biases, repeated down the 512 rows. The roundings to the shorter float format before the product are the
  identity on the extended reals. So entry (p, n) of what the step stores is

      (sum over k of x (p, k) * (q (n, k) * s (n, 0))) + b (0, n),

  and when the block holds rows 256 * t + n of the stored integers, scales and biases, this is entry (p, 256 * t + n) of the
  layer's table of 512 rows.
-/
import proofs.«127501_j37452114821241_1_alg».proof.Proof.Gen.KernelIdeal.Skeleton
import proofs.«127501_j37452114821241_1_alg».proof.Proof.BlockProduct
import proofs.«127501_j37452114821241_1_alg».proof.Proof.LibColumnForms
import proofs.«127501_j37452114821241_1_alg».proof.Proof.LibRowBroadcast
import proofs.«127501_j37452114821241_1_alg».proof.Proof.DequantLinear
import Idealize.ShloMosaic.Lib.Pipeline.Value

noncomputable section

namespace Cert.KernelIdeal.BlockValue

open Cert.KernelIdeal Cert.KernelIdeal.Gen Idealize.ShloMosaic Idealize.ShloMosaic.ValueIdx
open Cert.DequantLinear

/-- The stored value at (p, n): row p of the inputs against the dequantized row n of the block, plus the bias of n. -/
theorem payload_apply (x0 : FVec Ideal S512x4096 .f32) (x1 : IVec S256x4096 32) (x2 : FVec Ideal S256x1 .f32)
    (x3 : FVec Ideal S1x256 .f32) (p : Fin 512) (n : Fin 256) :
    k0_pay1 (F := Ideal) x0 x1 x2 x3 (ix2 p n)
      = (∑ k : Fin 4096, x0 (ix2 p k) * ((FloatOps.sitofp .f32 (x1 (ix2 n k)) : Ideal .f32) * x2 (ix2 n (0 : Fin 1))))
        + x3 (ix2 (0 : Fin 1) n) := by
  unfold k0_pay1
  refine (addf_apply _ _ _).trans ?_
  refine congrArg₂ (· + ·) ?_ ?_
  · -- the product, entry by entry; the roundings are the identity
    refine (BlockProduct.product_apply _ _ p n).trans (Finset.sum_congr rfl fun k _ => ?_)
    show shapeCast S512x4096 x0 _ (ix2 p k)
        * ((FloatOps.sitofp .f32 (x1 (ix2 n k)) : Ideal .f32) * broadcastTo S256x4096 x2 _ (ix2 n k)) = _
    rw [shapeCast_self, ColumnForms.broadcastTo_a1_ac_apply]
  · -- the one row of biases, repeated down the rows
    exact (RowBroadcast.broadcastTo_row _ _ p n).trans (congrFun (shapeCast_self x3 _) _)

/-- A step's stored entry (p, n) is entry (p, 256 * t + n) of the layer's table of 512 rows, when the step's blocks hold
    rows 256 * t + n of the stored integers, the scales and the biases. -/
theorem block_entry (X : FVec Ideal S512x4096 .f32) (Q : IVec S11008x4096 32) (Sc : FVec Ideal S11008x1 .f32)
    (B : FVec Ideal S1x11008 .f32)
    (x0 : FVec Ideal S512x4096 .f32) (x1 : IVec S256x4096 32) (x2 : FVec Ideal S256x1 .f32) (x3 : FVec Ideal S1x256 .f32)
    (t : Nat) (p : Fin 512) (n : Fin 256) (ho : t * 256 + n.val < 11008)
    (h0 : ∀ k : Fin 4096, x0 (ix2 p k) = X (ix2 p k))
    (h1 : ∀ k : Fin 4096, x1 (ix2 n k) = Q (ix2 (⟨t * 256 + n.val, ho⟩ : Fin 11008) k))
    (h2 : x2 (ix2 n (0 : Fin 1)) = Sc (ix2 (⟨t * 256 + n.val, ho⟩ : Fin 11008) (0 : Fin 1)))
    (h3 : x3 (ix2 (0 : Fin 1) n) = B (ix2 (0 : Fin 1) (⟨t * 256 + n.val, ho⟩ : Fin 11008))) :
    k0_pay1 (F := Ideal) x0 x1 x2 x3 (ix2 p n) = rows X Q Sc B (ix2 p (⟨t * 256 + n.val, ho⟩ : Fin 11008)) := by
  rw [payload_apply]
  show _ = entry (fun k => X (ix2 p k)) Q Sc (B (ix2 (0 : Fin 1) (⟨t * 256 + n.val, ho⟩ : Fin 11008))) ⟨t * 256 + n.val, ho⟩
  unfold entry weight
  rw [h2, h3]
  congr 1
  refine Finset.sum_congr rfl fun k _ => ?_
  rw [h0 k, h1 k]

end Cert.KernelIdeal.BlockValue

end
-- ==== Proof.KernelRows.lean ====
/-
  The kernel's result: the layer's table.

  The grid has 43 steps. Step t reads all 512 input rows (the same block at every step), rows 256 * t to 256 * t + 255 of the
  stored integers, of the scales and of the biases, and writes columns 256 * t to 256 * t + 255 of a [512, 11008] array. By
  the block computation each written entry (p, 256 * t + n) is the entry of the layer's table of 512 rows at that place;
  column o is written by step o / 256, so the 43 column blocks fill the array and after the run the array IS that table.
  Around the grid the program reshapes the inputs [8, 64, 4096] to 512 rows and the bias vector to one row, and reshapes the
  [512, 11008] result to [8, 64, 11008]: by the renumbering of rows (64 * a + r) the result is the table indexed by (a, r, o).
-/
import proofs.«127501_j37452114821241_1_alg».proof.Proof.Gen.KernelIdeal.Frame
import proofs.«127501_j37452114821241_1_alg».proof.Proof.BlockValue
import proofs.«127501_j37452114821241_1_alg».proof.Proof.DequantLinear
import Idealize.ShloMosaic.Lib.Pipeline.Value
import Idealize.ShloMosaic.Lib.StableHlo.Run

set_option maxRecDepth 16384

noncomputable section

namespace Cert.KernelIdeal.Rows

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)
open Cert.DequantLinear

variable (m : (ℓ : Loc nD τ sig) → Buf (Elt Ideal) ℓ) (ρ : Dev nD → PrngReg)

theorem zero_offsets : (![0, 0] : Fin 2 → Nat) = fun _ => 0 := funext fun a => by fin_cases a <;> rfl

/-- Which block each window is on at step t: the inputs' block never moves; the stored integers and the scales are on row
    block t; the biases and the output on column block t. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- Every column block is some step's. -/
theorem block_onto : ∀ q : Fin 43, ∃ t : Fin cfg0.N, win0_4.index t = ![0, q.val] :=
  (by decide +kernel : ∀ q : Fin 43, ∃ t : Fin grid0.N, win0_4.index t = ![0, q.val])

/-- The table of 512 rows of the arrays as the grid finds them. -/
abbrev gridTable (c : Dev nD) : S512x11008.Idx → EReal :=
  rows (V m c main_v0) (V m c main_arg1) (V m c main_arg2) (V m c main_v1)

/-- WHAT STEP t WRITES BACK is its block of the table. -/
theorem flushed_eq (c : Dev nD) (t : Fin cfg0.N) :
    (dats m 0 c).flushed 4 t = ((cfg0.win 4).blk t).view.read (Elt Ideal) (gridTable m c) := by
  show (cfg0.win 4).cut (grid0.coords t) ((dats m 0 c).after 4 t) = _
  rw [after0_4]
  unfold out0_4
  rw [View.canon_unit_zero zero_offsets]
  simp only [View.ld_unit_zero (S := S512x4096) zero_offsets, View.ld_unit_zero (S := S256x4096) zero_offsets,
    View.ld_unit_zero (S := S256x1) zero_offsets, View.ld_unit_zero (S := S1x256) zero_offsets]
  obtain ⟨e00, e01, e10, e11, e20, e21, e30, e31, e40, e41⟩ := block_indices t
  have htN : t.val < 43 := lt_of_lt_of_eq t.isLt N_0
  show (k0_pay1 (F := Ideal) (iblk m c 0 t) (iblk m c 1 t) (iblk m c 2 t) (iblk m c 3 t) : S512x256.Idx → EReal)
      = fun y : S512x256.Idx => gridTable m c (((cfg0.win 4).blk t).view.emb y)
  funext y
  obtain ⟨p, n, rfl⟩ : ∃ (p : Fin 512) (n : Fin 256), y = ix2 p n := ⟨y 0, y 1, eq_ix2 y⟩
  have ho : t.val * 256 + n.val < 11008 := by have := n.isLt; omega
  refine (BlockValue.block_entry (V m c main_v0) (V m c main_arg1) (V m c main_arg2) (V m c main_v1)
    (iblk m c 0 t) (iblk m c 1 t) (iblk m c 2 t) (iblk m c 3 t) t.val p n ho ?_ ?_ ?_ ?_).trans ?_
  · intro k
    show V m c main_v0 (((cfg0.win 0).blk t).view.emb (ix2 p k)) = V m c main_v0 (ix2 p k)
    refine congrArg (V m c main_v0) (funext fun a => Fin.ext ?_)
    match a with
    | ⟨0, _⟩ => show win0_0.index t (0 : Fin 2) * 512 + 1 * p.val = p.val; omega
    | ⟨1, _⟩ => show win0_0.index t (1 : Fin 2) * 4096 + 1 * k.val = k.val; omega
  · intro k
    show V m c main_arg1 (((cfg0.win 1).blk t).view.emb (ix2 n k)) = V m c main_arg1 (ix2 (⟨t.val * 256 + n.val, ho⟩ : Fin 11008) k)
    refine congrArg (V m c main_arg1) (funext fun a => Fin.ext ?_)
    match a with
    | ⟨0, _⟩ => show win0_1.index t (0 : Fin 2) * 256 + 1 * n.val = t.val * 256 + n.val; omega
    | ⟨1, _⟩ => show win0_1.index t (1 : Fin 2) * 4096 + 1 * k.val = k.val; omega
  · show V m c main_arg2 (((cfg0.win 2).blk t).view.emb (ix2 n (0 : Fin 1))) = V m c main_arg2 (ix2 (⟨t.val * 256 + n.val, ho⟩ : Fin 11008) (0 : Fin 1))
    refine congrArg (V m c main_arg2) (funext fun a => Fin.ext ?_)
    match a with
    | ⟨0, _⟩ => show win0_2.index t (0 : Fin 2) * 256 + 1 * n.val = t.val * 256 + n.val; omega
    | ⟨1, _⟩ => show win0_2.index t (1 : Fin 2) * 1 + 1 * 0 = 0; omega
  · show V m c main_v1 (((cfg0.win 3).blk t).view.emb (ix2 (0 : Fin 1) n)) = V m c main_v1 (ix2 (0 : Fin 1) (⟨t.val * 256 + n.val, ho⟩ : Fin 11008))
    refine congrArg (V m c main_v1) (funext fun a => Fin.ext ?_)
    match a with
    | ⟨0, _⟩ => show win0_3.index t (0 : Fin 2) * 1 + 1 * 0 = 0; omega
    | ⟨1, _⟩ => show win0_3.index t (1 : Fin 2) * 256 + 1 * n.val = t.val * 256 + n.val; omega
  · refine congrArg (gridTable m c) (funext fun a => Fin.ext ?_)
    match a with
    | ⟨0, _⟩ => show p.val = win0_4.index t (0 : Fin 2) * 512 + 1 * p.val; omega
    | ⟨1, _⟩ => show t.val * 256 + n.val = win0_4.index t (1 : Fin 2) * 256 + 1 * n.val; omega

/-- An index of the result array is in step t's block iff each coordinate is in the block's range. -/
theorem mem_block (t : Fin cfg0.N) (i : S512x11008.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v2).slice (win0_4.rect t)).set ↔ _
  rw [View.set_slice_whole, Rect.mem_set_unit]
  exact Iff.rfl

/-- The 43 column blocks fill the array: column o is written by step o / 256. -/
theorem covered (i : S512x11008.Idx) : ∃ t : Fin cfg0.N, (cfg0.win 4).flush t = true ∧ i ∈ ((cfg0.win 4).blk t).view.set := by
  have hi0 : (i 0).val < 512 := (i 0).isLt
  have hi1 : (i 1).val < 11008 := (i 1).isLt
  obtain ⟨t, ht⟩ := block_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- THE RESULT ARRAY after the grid is the table of 512 rows of the arrays as the grid finds them. -/
theorem array_eq (c : Dev nD) : (dats m 0 c).arrAt 4 cfg0.N = gridTable m c :=
  (dats m 0 c).arrAt_eq_of_cover 4 (gridTable m c) (fun t _ => flushed_eq m c t) covered

/-- The grid finds the inputs reshaped to 512 rows … -/
theorem inputs_eq (c : Dev nD) :
    (V m c main_v0 : S512x4096.Idx → EReal) = shapeCast S512x4096 (m ((c : Thread nD τ).loc main_arg0)) shapeCasts_S8x64x4096_S512x4096 := by
  show StableHlo.after hostOps0 (fun b => m (c, b)) (Proc.devRef .tc main_v0) = _
  after_results
  rfl

/-- … and the bias vector as one row. -/
theorem bias_eq (c : Dev nD) :
    (V m c main_v1 : S1x11008.Idx → EReal) = shapeCast S1x11008 (m ((c : Thread nD τ).loc main_arg3)) shapeCasts_S11008_S1x11008 := by
  show StableHlo.after hostOps0 (fun b => m (c, b)) (Proc.devRef .tc main_v1) = _
  after_results
  rfl

/-- The program's result is the grid's array reshaped to [8, 64, 11008]. -/
theorem result_eq (c : Dev nD) :
    (Pipeline.afterTail₀ cfgs (dats m) 0 (V0 m) [hostOps1] c main_v3 : S8x64x11008.Idx → EReal)
      = shapeCast S8x64x11008 ((dats m 0 c).arrAt 4 cfg0.N) shapeCasts_S512x11008_S8x64x11008 := by
  unfold Pipeline.afterTail₀
  show StableHlo.after hostOps1 _ (Proc.devRef .tc main_v3) = _
  after_results
  -- the reshape's operand is the grid's result array
  have e := Pipeline.withArrays_arr spec0 launch0.win.arr_inj c (V0 m c) (fun w => (dats m 0 c).arrAt w cfg0.N) 4
  funext i
  exact congrArg (fun A : S512x11008.Idx → EReal => shapeCast S8x64x11008 A shapeCasts_S512x11008_S8x64x11008 i) e

/-- THE PROGRAM'S RESULT is the layer's table of the arguments as launched. -/
theorem result_table (c : Dev nD) :
    (Pipeline.afterTail₀ cfgs (dats m) 0 (V0 m) [hostOps1] c main_v3 : S8x64x11008.Idx → EReal)
      = table (m ((c : Thread nD τ).loc main_arg0)) (m ((c : Thread nD τ).loc main_arg1))
          (m ((c : Thread nD τ).loc main_arg2)) (m ((c : Thread nD τ).loc main_arg3)) := by
  rw [result_eq, array_eq]
  show shapeCast S8x64x11008 (rows (V m c main_v0) (V m c main_arg1) (V m c main_arg2) (V m c main_v1)) _ = _
  rw [inputs_eq, bias_eq, V_main_arg1, V_main_arg2]
  exact table_of_rows _ _ _ _ _ _ _

/-- THE RUN: every weakly fair execution terminates with the result at the layer's table of the arguments and the
    arguments unchanged. -/
theorem run : θ_run defs (onTc (τ := τ) (main (F := Ideal))) ⟨m, fun _ => 0, ρ⟩ (fun r => ∀ c : Dev nD,
      r.2.mem ((c.tc : Thread nD τ).loc main_v3)
        = table (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v3 (Pipeline.mem_restRefs_of main_v3 (by decide) (by decide))).trans (result_table m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Rows

end
-- ==== Proof.ReferenceTable.lean ====
/-
  The reference computes the layer's table.

  The reference dequantizes the whole weight matrix (each stored integer as a real, times its row's scale broadcast along
  the row), multiplies the inputs [8, 64, 4096] with it contracting the last axis of both, and adds the bias broadcast over
  (a, r). Read at an index (a, r, o) this is the sum over k of x[a, r, k] * (q[o, k] * s[o]) plus b[o]: the entry of the
  layer's table, term for term, with nothing rearranged.
-/
import proofs.«127501_j37452114821241_1_alg».proof.Proof.Gen.ReferenceIdeal.Read
import proofs.«127501_j37452114821241_1_alg».proof.Proof.DequantLinear

noncomputable section

namespace Cert.ReferenceIdeal.Table

open Cert.ReferenceIdeal Cert.ReferenceIdeal.Gen Cert.ReferenceIdeal.Read Idealize.ShloMosaic Idealize.ShloMosaic.ValueIdx
open Cert.DequantLinear

/-- The reference's last stage, as a function of the four arguments, is the layer's table. -/
theorem stage_eq_table (x : (⟨S8x64x4096, .f32⟩ : BufTy).Contents (Elt Ideal)) (q : (⟨S11008x4096, .i32⟩ : BufTy).Contents (Elt Ideal))
    (s : (⟨S11008x1, .f32⟩ : BufTy).Contents (Elt Ideal)) (b : (⟨S11008, .f32⟩ : BufTy).Contents (Elt Ideal)) :
    val_main_v6 (F := Ideal) x q s b = table x q s b := by
  funext i
  obtain ⟨a, r, o, rfl⟩ : ∃ (a : Fin 8) (r : Fin 64) (o : Fin 11008), i = ix3 a r o := ⟨i 0, i 1, i 2, eq_ix3 i⟩
  rw [val_main_v6_apply, val_main_v3_apply, val_main_v5_apply, val_main_v4_apply]
  -- where each operand is read
  have hl : ∀ k : Fin 4096, lidx_main_v3 (ix3 a r o) k = ix3 a r k := fun k => funext fun d => by
    match d with | ⟨0, _⟩ => rfl | ⟨1, _⟩ => rfl | ⟨2, _⟩ => rfl
  have hr : ∀ k : Fin 4096, ridx_main_v3 (ix3 a r o) k = ix2 o k := fun k => funext fun d => by
    match d with | ⟨0, _⟩ => rfl | ⟨1, _⟩ => rfl
  have hs : ∀ k : Fin 4096, idx_main_v1 (ix2 o k) = ix2 o (0 : Fin 1) := fun k => funext fun d => by
    match d with | ⟨0, _⟩ => rfl | ⟨1, _⟩ => rfl
  have hb : idx_main_v4 (idx_main_v5 (ix3 a r o)) = ix1 o := funext fun d => by
    match d with | ⟨0, _⟩ => rfl
  rw [hb]
  show (∑ k : Fin 4096, x (lidx_main_v3 (ix3 a r o) k) * val_main_v2 (F := Ideal) q s (ridx_main_v3 (ix3 a r o) k)) + b (ix1 o)
      = entry (fun k => x (ix3 a r k)) q s (b (ix1 o)) o
  unfold entry
  congr 1
  refine Finset.sum_congr rfl fun k _ => ?_
  rw [hl k, hr k, val_main_v2_apply, val_main_v0_apply, val_main_v1_apply, hs k]
  rfl

end Cert.ReferenceIdeal.Table

end
-- ==== Proof.lean ====
/-
  A linear layer with an integer-stored weight matrix: the tiled kernel and the plain reference compute one table.

  Both programs take inputs x [8, 64, 4096], stored integers q [11008, 4096], one scale per weight row s [11008, 1] and a bias
  b [11008], and return y [8, 64, 11008] with

      y[a, r, o] = (sum over k of x[a, r, k] * (q[o, k] * s[o])) + b[o],

  q[o, k] read as a real number. The reference does this with whole arrays: it dequantizes the weight matrix, contracts the
  last axis of x with the last axis of the weights, and adds the bias. The kernel views x as 512 rows and walks 43 blocks of
  256 weight rows; at each it dequantizes the block, multiplies all 512 input rows with it (after rounding both operands to a
  shorter float format, which changes nothing over the extended reals) and writes 256 columns of a [512, 11008] result, which
  is reshaped back at the end. Over the extended reals the two are the same sums, factor for factor and term for term:
  the blocks only partition the output columns, and the reshapes only renumber the rows (row 64 * a + r is (a, r)). No law
  of arithmetic is needed beyond that, and in particular nothing about the inputs being finite.

  The modules: DequantLinear (the table, in both layouts, and that the layouts agree), ReferenceTable (the reference computes
  the table), BlockProduct and BlockValue (one block step of the kernel, entry by entry), KernelRows (the blocks fill the
  result array, and the reshapes around the grid). Here the five claims are assembled: the three programs run and leave
  their arguments unchanged; the idealized kernel is the kernel's own text, so there is nothing to preserve; and the
  idealized kernel and reference, from memories agreeing on the arguments, end with equal results.
-/
import proofs.«127501_j37452114821241_1_alg».proof.Defs
import proofs.«127501_j37452114821241_1_alg».proof.Proof.Gen.Kernel
import proofs.«127501_j37452114821241_1_alg».proof.Proof.Gen.Kernel.Skeleton
import proofs.«127501_j37452114821241_1_alg».proof.Proof.Gen.Kernel.Launch
import proofs.«127501_j37452114821241_1_alg».proof.Proof.Gen.Kernel.Points
import proofs.«127501_j37452114821241_1_alg».proof.Proof.Gen.Kernel.Frame
import proofs.«127501_j37452114821241_1_alg».proof.Proof.Gen.KernelIdeal
import proofs.«127501_j37452114821241_1_alg».proof.Proof.Gen.KernelIdeal.Skeleton
import proofs.«127501_j37452114821241_1_alg».proof.Proof.Gen.KernelIdeal.Launch
import proofs.«127501_j37452114821241_1_alg».proof.Proof.Gen.KernelIdeal.Points
import proofs.«127501_j37452114821241_1_alg».proof.Proof.Gen.KernelIdeal.Frame
import proofs.«127501_j37452114821241_1_alg».proof.Proof.Gen.ReferenceIdeal
import proofs.«127501_j37452114821241_1_alg».proof.Proof.Gen.ReferenceIdeal.Run
import proofs.«127501_j37452114821241_1_alg».proof.Proof.Gen.ReferenceIdeal.Read
import proofs.«127501_j37452114821241_1_alg».proof.Proof.Gen.Pre_finite_inputs
import proofs.«127501_j37452114821241_1_alg».proof.Proof.KernelRows
import proofs.«127501_j37452114821241_1_alg».proof.Proof.ReferenceTable
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference has no kernel: its run, with the result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories agreeing on the four arguments both programs end with the layer's table of those arguments: the kernel
    by its blocks and reshapes, the reference stage by stage. -/
theorem algebraic : Cert.algebraic_KernelIdeal_ReferenceIdeal := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.ReferenceIdeal.Table.stage_eq_table _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
